-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_6 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128_S128x128_1_0 : S128x128.Transposes [1, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S128x128, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The layer's result as one function of the five argument arrays, entry by entry.

  For a destination node R and an output feature j,

      sage R j = ((∑ k, (∑ s, adj[R, s] · x[s, k]) · W_l[j, k]) + b_l[j]) + ∑ k, x[R, k] · W_r[j, k] :

  the neighbourhood aggregate  adj · x  pushed through the left weights, the bias, and the node's own features
  through the right weights. All arithmetic is the extended reals'; nothing here needs the entries to be finite,
  because the only law used to join the two programs is that a sum of three terms may be taken in either order.
-/
import Idealize.ShloMosaic.PureOps.Ideal
import Idealize.ShloMosaic.Lib.ValueIdx

noncomputable section

open scoped BigOperators

namespace Cert.Sage

open Idealize.ShloMosaic Idealize.ShloMosaic.ValueIdx

/-- The aggregate of the neighbours' features: entry (R, k) of  adj · x. -/
def agg (x : (⟨2, ![10000, 128]⟩ : Shape).Idx → EReal) (adj : (⟨2, ![10000, 10000]⟩ : Shape).Idx → EReal)
    (R : Fin 10000) (k : Fin 128) : EReal :=
  ∑ s : Fin 10000, adj (ix2 R s) * x (ix2 s k)

/-- The aggregate through the left weights: entry (R, j) of  (adj · x) · W_lᵀ. -/
def left (x : (⟨2, ![10000, 128]⟩ : Shape).Idx → EReal) (adj : (⟨2, ![10000, 10000]⟩ : Shape).Idx → EReal)
    (Wl : (⟨2, ![128, 128]⟩ : Shape).Idx → EReal) (R : Fin 10000) (j : Fin 128) : EReal :=
  ∑ k : Fin 128, agg x adj R k * Wl (ix2 j k)

/-- The node's own features through the right weights: entry (R, j) of  x · W_rᵀ. -/
def root (x : (⟨2, ![10000, 128]⟩ : Shape).Idx → EReal) (Wr : (⟨2, ![128, 128]⟩ : Shape).Idx → EReal)
    (R : Fin 10000) (j : Fin 128) : EReal :=
  ∑ k : Fin 128, x (ix2 R k) * Wr (ix2 j k)

/-- The layer's result at node R, feature j, summed in the order the reference adds its three terms. -/
def sage (x : (⟨2, ![10000, 128]⟩ : Shape).Idx → EReal) (adj : (⟨2, ![10000, 10000]⟩ : Shape).Idx → EReal)
    (Wl : (⟨2, ![128, 128]⟩ : Shape).Idx → EReal) (b : (⟨1, ![128]⟩ : Shape).Idx → EReal)
    (Wr : (⟨2, ![128, 128]⟩ : Shape).Idx → EReal) (R : Fin 10000) (j : Fin 128) : EReal :=
  (left x adj Wl R j + b (ix1 j)) + root x Wr R j

/-- The whole result array. -/
def G (x : (⟨2, ![10000, 128]⟩ : Shape).Idx → EReal) (adj : (⟨2, ![10000, 10000]⟩ : Shape).Idx → EReal)
    (Wl : (⟨2, ![128, 128]⟩ : Shape).Idx → EReal) (b : (⟨1, ![128]⟩ : Shape).Idx → EReal)
    (Wr : (⟨2, ![128, 128]⟩ : Shape).Idx → EReal) : (⟨2, ![10000, 128]⟩ : Shape).Idx → EReal :=
  fun i => sage x adj Wl b Wr (i 0) (i 1)

/-- The kernel adds the root term before the bias, the reference after it: the same sum of three. -/
theorem sage_kernel_order (x : (⟨2, ![10000, 128]⟩ : Shape).Idx → EReal) (adj : (⟨2, ![10000, 10000]⟩ : Shape).Idx → EReal)
    (Wl : (⟨2, ![128, 128]⟩ : Shape).Idx → EReal) (b : (⟨1, ![128]⟩ : Shape).Idx → EReal)
    (Wr : (⟨2, ![128, 128]⟩ : Shape).Idx → EReal) (R : Fin 10000) (j : Fin 128) :
    (left x adj Wl R j + root x Wr R j) + b (ix1 j) = sage x adj Wl b Wr R j := by
  unfold sage
  exact add_right_comm _ _ _

end Cert.Sage

end
-- ==== Proof.RefLayer.lean ====
/-
  The reference program's result, read entry by entry, is the layer function of the specification.

  The reference multiplies adj by x, multiplies the product by the transpose of W_l, adds the bias broadcast over the
  rows, and then adds x times the transpose of W_r. Each matrix product read at an entry is the sum over its
  contracted coordinate, a transposed matrix at (k, j) is the matrix at (j, k), and the broadcast bias at (R, j) is
  the bias at j: term by term this is the specification's formula, with the three summands in the same order.
-/
import proofs.«108507_g21028159881243_cont_8to1_1723_10_alg».proof.Proof.Gen.ReferenceIdeal.Read
import proofs.«108507_g21028159881243_cont_8to1_1723_10_alg».proof.Proof.Spec

noncomputable section

open scoped BigOperators

namespace Cert.ReferenceIdeal.Layer

open Cert.ReferenceIdeal Cert.ReferenceIdeal.Read Idealize.ShloMosaic Idealize.ShloMosaic.ValueIdx

/-! The operand indices of each product, transpose and broadcast, at an entry given by its coordinates. -/

theorem adj_at (R : Fin 10000) (k : Fin 128) (s : Fin 10000) : lidx_main_v0 (ix2 R k) s = ix2 R s :=
  funext fun a => match a with | ⟨0, _⟩ => rfl | ⟨1, _⟩ => rfl
theorem feat_at (R : Fin 10000) (k : Fin 128) (s : Fin 10000) : ridx_main_v0 (ix2 R k) s = ix2 s k :=
  funext fun a => match a with | ⟨0, _⟩ => rfl | ⟨1, _⟩ => rfl
theorem swap_left (k j : Fin 128) : idx_main_v1 (ix2 k j) = ix2 j k :=
  funext fun a => match a with | ⟨0, _⟩ => rfl | ⟨1, _⟩ => rfl
theorem agg_at (R : Fin 10000) (j k : Fin 128) : lidx_main_v2 (ix2 R j) k = ix2 R k :=
  funext fun a => match a with | ⟨0, _⟩ => rfl | ⟨1, _⟩ => rfl
theorem left_at (R : Fin 10000) (j k : Fin 128) : ridx_main_v2 (ix2 R j) k = ix2 k j :=
  funext fun a => match a with | ⟨0, _⟩ => rfl | ⟨1, _⟩ => rfl
theorem bias_row (R : Fin 10000) (j : Fin 128) : idx_main_v4 (ix2 R j) = ix2 (0 : Fin 1) j :=
  funext fun a => match a with | ⟨0, _⟩ => rfl | ⟨1, _⟩ => rfl
theorem bias_at (j : Fin 128) : idx_main_v3 (ix2 (0 : Fin 1) j) = ix1 j :=
  funext fun a => match a with | ⟨0, _⟩ => rfl
theorem swap_right (k j : Fin 128) : idx_main_v6 (ix2 k j) = ix2 j k :=
  funext fun a => match a with | ⟨0, _⟩ => rfl | ⟨1, _⟩ => rfl
theorem own_at (R : Fin 10000) (j k : Fin 128) : lidx_main_v7 (ix2 R j) k = ix2 R k :=
  funext fun a => match a with | ⟨0, _⟩ => rfl | ⟨1, _⟩ => rfl
theorem right_at (R : Fin 10000) (j k : Fin 128) : ridx_main_v7 (ix2 R j) k = ix2 k j :=
  funext fun a => match a with | ⟨0, _⟩ => rfl | ⟨1, _⟩ => rfl

/-- The reference's last stage is the layer function of its five arguments. -/
theorem reference_eq (x : (⟨S10000x128, .f32⟩ : BufTy).Contents (Elt Ideal)) (adj : (⟨S10000x10000, .f32⟩ : BufTy).Contents (Elt Ideal))
    (Wl : (⟨S128x128, .f32⟩ : BufTy).Contents (Elt Ideal)) (b : (⟨S128, .f32⟩ : BufTy).Contents (Elt Ideal))
    (Wr : (⟨S128x128, .f32⟩ : BufTy).Contents (Elt Ideal)) :
    val_main_v8 (F := Ideal) x adj Wl b Wr = Cert.Sage.G x adj Wl b Wr := by
  funext i
  obtain ⟨R, j, rfl⟩ : ∃ (R : Fin 10000) (j : Fin 128), i = ix2 R j := ⟨i 0, i 1, eq_ix2 i⟩
  rw [val_main_v8_apply, val_main_v5_apply, val_main_v2_apply, val_main_v4_apply, val_main_v3_apply, val_main_v7_apply]
  simp only [agg_at, left_at, bias_row, bias_at, own_at, right_at, val_main_v0_apply, val_main_v1_apply, val_main_v6_apply,
    adj_at, feat_at, swap_left, swap_right, Ideal.addf_def]
  rfl

end Cert.ReferenceIdeal.Layer

end
-- ==== Proof.Payload.lean ====
/-
  The kernel body's arithmetic, read at one entry of its output block.

  One grid point holds 400 rows of the adjacency matrix (a block A of shape 400 × 10000), the whole feature
  matrix X (10000 × 128), the two weight matrices already transposed (L and Rt, 128 × 128), the same 400 rows of X
  again (a block Xb, read from the resident copy of X), and the bias as one row (1 × 128). What it stores at row r,
  feature j of its block is

      ((∑ k, (∑ s, A[r, s] · X[s, k]) · L[k, j]) + ∑ k, Xb[r, k] · Rt[k, j]) + bias[0, j].

  Each of the three matrix products accumulates into a zero block, so over the extended reals it is the plain sum
  over the contracted coordinate.
-/
import proofs.«108507_g21028159881243_cont_8to1_1723_10_alg».proof.Proof.Gen.KernelIdeal.Skeleton
import Idealize.ShloMosaic.Lib.ValueIdx
import Idealize.ShloMosaic.Lib.ValueLayout
import Idealize.ShloMosaic.Lib.StackMember
import Idealize.ShloMosaic.Lib.Pipeline.Value

noncomputable section

open scoped BigOperators

namespace Cert.KernelIdeal.Layer

open Cert.KernelIdeal Cert.KernelIdeal.Gen Idealize.ShloMosaic Idealize.ShloMosaic.ValueIdx

/-- A 400 × 10000 block times the 10000 × 128 features, into zero: entry (r, k) is the sum over the source nodes. -/
theorem aggregate_apply (A : FVec Ideal S400x10000 .f32) (X : FVec Ideal S10000x128 .f32) (r : Fin 400) (k : Fin 128) :
    matmul dot_S400x10000_S10000x128_S400x128_1_0_0_1_n_n none A X (constant S400x128 .f32 0x00000000#32) (ix2 r k)
      = ∑ s : Fin 10000, A (ix2 r s) * X (ix2 s k) := by
  rw [matmul_zero_eq_dotGeneral]
  exact StackMember.dotGeneral_plain_apply none A X r k

/-- A 400 × 128 block times a 128 × 128 matrix, into zero: entry (r, j) is the sum over the input features. -/
theorem project_apply (Y : FVec Ideal S400x128 .f32) (W : FVec Ideal S128x128 .f32) (r : Fin 400) (j : Fin 128) :
    matmul dot_S400x128_S128x128_S400x128_1_0_0_1_n_n none Y W (constant S400x128 .f32 0x00000000#32) (ix2 r j)
      = ∑ k : Fin 128, Y (ix2 r k) * W (ix2 k j) := by
  rw [matmul_zero_eq_dotGeneral]
  exact StackMember.dotGeneral_plain_apply none Y W r j

/-- The stored value at row r, feature j of the block. -/
theorem stored_apply (A : Vec Ideal S400x10000 .f32) (X : Vec Ideal S10000x128 .f32) (L : Vec Ideal S128x128 .f32)
    (Xb : Vec Ideal S400x128 .f32) (Rt : Vec Ideal S128x128 .f32) (bias : Vec Ideal S1x128 .f32) (r : Fin 400) (j : Fin 128) :
    k0_pay1 A X L Xb Rt bias (ix2 r j)
      = ((∑ k : Fin 128, (∑ s : Fin 10000, A (ix2 r s) * X (ix2 s k)) * L (ix2 k j))
          + ∑ k : Fin 128, Xb (ix2 r k) * Rt (ix2 k j)) + bias (ix2 (0 : Fin 1) j) := by
  unfold k0_pay1
  simp only [shapeCast_self]
  rw [addf_apply, addf_apply, project_apply, project_apply, broadcastTo_1b_ab_apply]
  simp only [aggregate_apply]

end Cert.KernelIdeal.Layer

end
-- ==== Proof.Piece.lean ====
/-
  What one grid point leaves in the output block's staging buffer.

  The body reads its five input blocks whole, reads 400 rows of the resident feature matrix a second time at a row
  offset computed from the grid coordinate, and then overwrites the whole output block with one value. So the
  buffer ends holding exactly that stored value: the body's arithmetic applied to the input blocks and to the rows of
  the feature matrix starting at the computed offset.
-/
import proofs.«108507_g21028159881243_cont_8to1_1723_10_alg».proof.Proof.Gen.KernelIdeal.Frame
import Idealize.ShloMosaic.Lib.Pipeline.Value
import Idealize.ShloMosaic.Lib.Tactic

noncomputable section

namespace Cert.KernelIdeal.Layer

open Cert.KernelIdeal Cert.KernelIdeal.Gen Idealize.ShloMosaic Idealize.ShloMosaic.TcCoe Idealize.SL.Sem

variable {F : FTy → Type} [FloatOps F]

/-- A rectangle that starts at the origin and spans the whole shape. -/
theorem origin : (![0, 0] : Fin 2 → Nat) = fun _ => 0 := funext fun a => by fin_cases a <;> rfl

/-- The output block after the body: the stored value, over the blocks `x0 … x4` and the rows of `x1` from the
    offset the body computes. -/
theorem block_after (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S128x128 .f32) (h4 : a4.IsWhole) (a5 : Memref sig .tc .vmem S1x128 .f32) (h5 : a5.IsWhole)
    (a6 : Memref sig .tc .vmem S400x128 .f32) (h6 : a6.IsWhole)
    (x0 : Vec F S400x10000 .f32) (x1 : Vec F S10000x128 .f32) (x2 : Vec F S128x128 .f32) (x3 : Vec F S128x128 .f32) (x4 : Vec F S1x128 .f32) :
    out0_A_5 c i a1 h1 a2 h2 a3 h3 a4 h4 a5 h5 a6 h6 x0 x1 x2 x3 x4
      = k0_pay1 x0 x1 x2 (View.ld x1 (Rect.unit (s := S10000x128) (k0_off1 i) S400x128.size (k0_off1_inb i))) x3 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero origin]
  simp only [View.readAt_eq_ld, h1.read_unread, h2.read_unread, h3.read_unread, h4.read_unread, h5.read_unread,
    View.ld_unit_zero (S := S400x10000) origin, View.ld_unit_zero (S := S10000x128) origin,
    View.ld_unit_zero (S := S128x128) origin, View.ld_unit_zero (S := S1x128) origin]

end Cert.KernelIdeal.Layer

end
-- ==== Proof.KernelLayer.lean ====
/-
  The idealized kernel's result array is the layer function of the specification.

  The grid has 25 points; point t holds rows 400·t … 400·t + 399 of the adjacency matrix, the whole feature matrix,
  the two weight matrices transposed on the host, and the bias reshaped to one row, and it writes rows
  400·t … 400·t + 399 of the result. The second read of the feature matrix inside the body starts at row 400·t, so it
  reads the same rows the output block covers. Entry (r, j) of what point t stores is therefore the layer's value at
  node 400·t + r, feature j, with the root term added before the bias; the 25 blocks tile the result array.
-/
import proofs.«108507_g21028159881243_cont_8to1_1723_10_alg».proof.Proof.Gen.KernelIdeal.Value
import proofs.«108507_g21028159881243_cont_8to1_1723_10_alg».proof.Proof.Payload
import proofs.«108507_g21028159881243_cont_8to1_1723_10_alg».proof.Proof.Piece
import proofs.«108507_g21028159881243_cont_8to1_1723_10_alg».proof.Proof.Spec
import Idealize.ShloMosaic.Lib.StableHlo.Run
import Idealize.ShloMosaic.Lib.Tactic

noncomputable section

open scoped BigOperators

namespace Cert.KernelIdeal.Layer

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each block sits -/

/-- The block indices of the six windows and the grid coordinate, at every point: the adjacency and result
    blocks move down with the point, everything else stays at the origin. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-! ## The arrays the region finds -/

/-- The left weights reach the region transposed. -/
theorem left_entry (c : Dev nD) : (V m c main_call0_v0 : S128x128.Idx → EReal)
    = transpose S128x128 [1, 0] (m ((c : Thread nD τ).loc main_arg2)) transposes_S128x128_S128x128_1_0 := by
  dsimp only [Gen.V, Gen.hostOps0]; after_results; rfl

/-- The right weights reach the region transposed. -/
theorem right_entry (c : Dev nD) : (V m c main_call0_v1 : S128x128.Idx → EReal)
    = transpose S128x128 [1, 0] (m ((c : Thread nD τ).loc main_arg4)) transposes_S128x128_S128x128_1_0 := by
  dsimp only [Gen.V, Gen.hostOps0]; after_results; rfl

/-- The bias reaches the region as one row. -/
theorem bias_entry (c : Dev nD) : (V m c main_call0_v2 : S1x128.Idx → EReal)
    = shapeCast S1x128 (m ((c : Thread nD τ).loc main_arg3)) shapeCasts_S128_S1x128 := by
  dsimp only [Gen.V, Gen.hostOps0]; after_results; rfl

/-! ## The blocks at coordinates -/

/-- Row r of point t's adjacency block is row 400·t + r of the adjacency matrix. -/
theorem adj_block (c : Dev nD) (t : Fin cfg0.N) (r : Fin 400) (s : Fin 10000) (hR : 400 * t.val + r.val < 10000) :
    (iblk m c 0 t : Vec Ideal S400x10000 .f32) (ix2 r s)
      = m ((c : Thread nD τ).loc main_arg1) (ix2 ⟨400 * t.val + r.val, hR⟩ s) := by
  obtain ⟨e0, e1, -⟩ := where_blocks t
  unfold iblk
  rw [View.read_apply]
  show V m c main_arg1 _ = _
  rw [V_main_arg1]
  congr 1
  funext a; apply Fin.ext
  match a with
  | ⟨0, _⟩ => show win0_0.index t (0 : Fin 2) * 400 + 1 * r.val = 400 * t.val + r.val; omega
  | ⟨1, _⟩ => show win0_0.index t (1 : Fin 2) * 10000 + 1 * s.val = s.val; omega

/-- The feature window's one block is the whole feature matrix. -/
theorem feat_block (c : Dev nD) (t : Fin cfg0.N) (y : S10000x128.Idx) :
    (iblk m c 1 t : Vec Ideal S10000x128 .f32) y = m ((c : Thread nD τ).loc main_arg0) y := by
  obtain ⟨-, -, e2, e3, -⟩ := where_blocks t
  unfold iblk
  rw [View.read_apply]
  show V m c main_arg0 _ = _
  rw [V_main_arg0]
  congr 1
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The left-weights window's one block, at (k, j), is W_l at (j, k). -/
theorem left_block (c : Dev nD) (t : Fin cfg0.N) (k j : Fin 128) :
    (iblk m c 2 t : Vec Ideal S128x128 .f32) (ix2 k j) = m ((c : Thread nD τ).loc main_arg2) (ix2 j k) := by
  obtain ⟨-, -, -, -, e4, e5, -⟩ := where_blocks t
  unfold iblk
  rw [View.read_apply]
  show V m c main_call0_v0 _ = _
  rw [left_entry]
  have he : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [he]
  exact transpose_ix2_apply _ _ k j

/-- The right-weights window's one block, at (k, j), is W_r at (j, k). -/
theorem right_block (c : Dev nD) (t : Fin cfg0.N) (k j : Fin 128) :
    (iblk m c 3 t : Vec Ideal S128x128 .f32) (ix2 k j) = m ((c : Thread nD τ).loc main_arg4) (ix2 j k) := by
  obtain ⟨-, -, -, -, -, -, e6, e7, -⟩ := where_blocks t
  unfold iblk
  rw [View.read_apply]
  show V m c main_call0_v1 _ = _
  rw [right_entry]
  have he : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 128 + 1 * j.val = j.val; omega
  rw [he]
  exact transpose_ix2_apply _ _ k j

/-- The bias window's one block, at (0, j), is the bias at j. -/
theorem bias_block (c : Dev nD) (t : Fin cfg0.N) (j : Fin 128) :
    (iblk m c 4 t : Vec Ideal S1x128 .f32) (ix2 (0 : Fin 1) j) = m ((c : Thread nD τ).loc main_arg3) (ix1 j) := by
  obtain ⟨-, -, -, -, -, -, -, -, e8, e9, -⟩ := where_blocks t
  unfold iblk
  rw [View.read_apply]
  show V m c main_call0_v2 _ = _
  rw [bias_entry]
  have he : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 128 + 1 * j.val = j.val; omega
  rw [he]
  exact shapeCast_a_1a_apply _ _ (0 : Fin 1) j

/-- The body's second read of the features, at row r, is row 400·t + r of the feature matrix. -/
theorem own_rows (c : Dev nD) (t : Fin cfg0.N) (r : Fin 400) (k : Fin 128) (hR : 400 * t.val + r.val < 10000) :
    View.ld (iblk m c 1 t : Vec Ideal S10000x128 .f32)
        (Rect.unit (s := S10000x128) (k0_off1 (grid0.coords t)) S400x128.size (k0_off1_inb (grid0.coords t))) (ix2 r k)
      = m ((c : Thread nD τ).loc main_arg0) (ix2 ⟨400 * t.val + r.val, hR⟩ k) := by
  have eg : (grid0.coords t 0).val = t.val := (where_blocks t).2.2.2.2.2.2.2.2.2.2.2.2
  show (iblk m c 1 t : Vec Ideal S10000x128 .f32) _ = _
  rw [feat_block]
  congr 1
  funext a; apply Fin.ext
  match a with
  | ⟨0, _⟩ =>
    show k0_off1 (grid0.coords t) 0 + 1 * r.val = 400 * t.val + r.val
    rw [k0_off1_eq]
    show 400 * (grid0.coords t 0).val + 1 * r.val = 400 * t.val + r.val
    omega
  | ⟨1, _⟩ =>
    show k0_off1 (grid0.coords t) 1 + 1 * k.val = k.val
    rw [k0_off1_eq]
    show 0 + 1 * k.val = k.val
    omega

/-! ## What one point stores is a band of rows of the layer function -/

/-- If the body's operands hold, at the entries the stored value reads, the matching entries of the five arguments
    for node R, then the stored value at (r, j) is the layer's value at node R, feature j. -/
theorem stored_is_layer (A : Vec Ideal S400x10000 .f32) (X : Vec Ideal S10000x128 .f32) (L : Vec Ideal S128x128 .f32)
    (Xb : Vec Ideal S400x128 .f32) (Rt : Vec Ideal S128x128 .f32) (bias : Vec Ideal S1x128 .f32)
    (x : S10000x128.Idx → EReal) (adj : S10000x10000.Idx → EReal) (Wl : S128x128.Idx → EReal) (b : S128.Idx → EReal)
    (Wr : S128x128.Idx → EReal) (R : Fin 10000) (r : Fin 400) (j : Fin 128)
    (hA : ∀ s, A (ix2 r s) = adj (ix2 R s)) (hX : ∀ s k, X (ix2 s k) = x (ix2 s k))
    (hL : ∀ k, L (ix2 k j) = Wl (ix2 j k)) (hXb : ∀ k, Xb (ix2 r k) = x (ix2 R k))
    (hRt : ∀ k, Rt (ix2 k j) = Wr (ix2 j k)) (hb : bias (ix2 (0 : Fin 1) j) = b (ix1 j)) :
    k0_pay1 A X L Xb Rt bias (ix2 r j) = Cert.Sage.sage x adj Wl b Wr R j := by
  rw [stored_apply]
  simp only [hA, hX, hL, hXb, hRt, hb]
  exact Cert.Sage.sage_kernel_order x adj Wl b Wr R j

/-- What point t writes back is its band of rows of the layer function of the five arguments. -/
theorem flushed_eq (c : Dev nD) (t : Fin cfg0.N) :
    (dats m 0 c).flushed 5 t = ((cfg0.win 5).blk t).view.read (Elt Ideal)
      (Cert.Sage.G (m ((c : Thread nD τ).loc main_arg0)) (m ((c : Thread nD τ).loc main_arg1))
        (m ((c : Thread nD τ).loc main_arg2)) (m ((c : Thread nD τ).loc main_arg3)) (m ((c : Thread nD τ).loc main_arg4))) := by
  rw [flushed5_A, block_after]
  have e10 : win0_5.index t (0 : Fin 2) = t.val := (where_blocks t).2.2.2.2.2.2.2.2.2.2.1
  have e11 : win0_5.index t (1 : Fin 2) = 0 := (where_blocks t).2.2.2.2.2.2.2.2.2.2.2.1
  have hN : t.val < 25 := by have h := t.isLt; have e : cfg0.N = 25 := N_0; omega
  funext y
  obtain ⟨r, j, rfl⟩ : ∃ (r : Fin 400) (j : Fin 128), y = ix2 r j := ⟨y 0, y 1, eq_ix2 y⟩
  have hR : 400 * t.val + r.val < 10000 := by have := r.isLt; omega
  refine (stored_is_layer (iblk m c 0 t) (iblk m c 1 t) (iblk m c 2 t)
    (View.ld (iblk m c 1 t : Vec Ideal S10000x128 .f32)
      (Rect.unit (s := S10000x128) (k0_off1 (grid0.coords t)) S400x128.size (k0_off1_inb (grid0.coords t))))
    (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) ⟨400 * t.val + r.val, hR⟩ r j
    (fun s => adj_block m c t r s hR) (fun s k => feat_block m c t (ix2 s k)) (fun k => left_block m c t k j)
    (fun k => own_rows m c t r k hR) (fun k => right_block m c t k j) (bias_block m c t j)).trans ?_
  rw [View.read_apply]
  show _ = Cert.Sage.G _ _ _ _ _ (((cfg0.win 5).blk t).view.emb (ix2 r j))
  unfold Cert.Sage.G
  have h0 : ((cfg0.win 5).blk t).view.emb (ix2 r j) 0 = ⟨400 * t.val + r.val, hR⟩ := by
    apply Fin.ext
    show win0_5.index t (0 : Fin 2) * 400 + 1 * r.val = 400 * t.val + r.val
    omega
  have h1 : ((cfg0.win 5).blk t).view.emb (ix2 r j) 1 = j := by
    apply Fin.ext
    show win0_5.index t (1 : Fin 2) * 128 + 1 * j.val = j.val
    omega
  rw [h0, h1]
  rfl

/-- An index of the result array is in point t's block iff its row lies in the point's band. -/
theorem mem_band (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v0).slice (win0_5.rect t)).set ↔ _
  rw [View.set_slice_whole, Rect.mem_set_unit]
  exact Iff.rfl

/-- Every row of the result lies in the band of the point numbered by the row divided by 400. -/
theorem bands_cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have e10 : win0_5.index t (0 : Fin 2) = (i 0).val / 400 := (where_blocks t).2.2.2.2.2.2.2.2.2.2.1
  have e11 : win0_5.index t (1 : Fin 2) = 0 := (where_blocks t).2.2.2.2.2.2.2.2.2.2.2.1
  refine ⟨t, flush0_5 t, ?_⟩
  rw [mem_band]
  intro a
  match a with
  | ⟨0, _⟩ =>
    show win0_5.index t (0 : Fin 2) * 400 ≤ (i 0).val ∧ (i 0).val < win0_5.index t (0 : Fin 2) * 400 + 400
    omega
  | ⟨1, _⟩ =>
    show win0_5.index t (1 : Fin 2) * 128 ≤ (i 1).val ∧ (i 1).val < win0_5.index t (1 : Fin 2) * 128 + 128
    omega

/-- The result array after the run is the layer function of the five arguments. -/
theorem result_eq (c : Dev nD) : (dats m 0 c).arrAt 5 cfg0.N
    = Cert.Sage.G (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_eq m c t) bands_cover

/-- Every weakly fair execution of the idealized kernel ends with the result array at the layer function and the
    arguments unchanged. -/
theorem run : θ_run defs (onTc (τ := τ) (main (F := Ideal))) ⟨m, fun _ => 0, ρ⟩ fun r => ∀ c : Dev nD,
      r.2.mem ((c : Thread nD τ).loc main_v0)
        = Cert.Sage.G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (run_blocks m ρ)

end Cert.KernelIdeal.Layer

end
-- ==== Proof.lean ====
/-
  A graph-convolution layer over a dense adjacency matrix: for 10000 nodes with 128 features,

      out = (adj · x) · W_lᵀ + b_l + x · W_rᵀ.

  The kernel computes it 400 destination rows at a time: each grid point multiplies its band of the adjacency matrix
  by the whole feature matrix, multiplies the result by W_lᵀ, adds the product of its own 400 rows of x with W_rᵀ, and
  adds the bias last. The reference computes the three terms over the whole arrays and adds the bias before the root
  term. Over the extended reals every matrix product is the plain sum over its contracted coordinate on both sides,
  so entry by entry the two results differ only in the order in which the same three summands are added, and
  addition of extended reals is commutative and associative: the inputs' finiteness is not needed.

  Proof/Spec.lean states the layer as one function of the five arguments; Proof/RefLayer.lean shows the reference's
  result is that function; Proof/Payload.lean reads the kernel body's stored value at an entry, Proof/Piece.lean shows
  that value is what a grid point leaves in its output block, and Proof/KernelLayer.lean reads the input blocks at
  coordinates and assembles the 25 bands into the result array.
-/
import proofs.«108507_g21028159881243_cont_8to1_1723_10_alg».proof.Defs
import proofs.«108507_g21028159881243_cont_8to1_1723_10_alg».proof.Proof.Gen.Kernel
import proofs.«108507_g21028159881243_cont_8to1_1723_10_alg».proof.Proof.Gen.Kernel.Skeleton
import proofs.«108507_g21028159881243_cont_8to1_1723_10_alg».proof.Proof.Gen.Kernel.Launch
import proofs.«108507_g21028159881243_cont_8to1_1723_10_alg».proof.Proof.Gen.Kernel.Points
import proofs.«108507_g21028159881243_cont_8to1_1723_10_alg».proof.Proof.Gen.Kernel.Frame
import proofs.«108507_g21028159881243_cont_8to1_1723_10_alg».proof.Proof.Gen.KernelIdeal
import proofs.«108507_g21028159881243_cont_8to1_1723_10_alg».proof.Proof.Gen.KernelIdeal.Skeleton
import proofs.«108507_g21028159881243_cont_8to1_1723_10_alg».proof.Proof.Gen.KernelIdeal.Launch
import proofs.«108507_g21028159881243_cont_8to1_1723_10_alg».proof.Proof.Gen.KernelIdeal.Points
import proofs.«108507_g21028159881243_cont_8to1_1723_10_alg».proof.Proof.Gen.KernelIdeal.Frame
import proofs.«108507_g21028159881243_cont_8to1_1723_10_alg».proof.Proof.Gen.ReferenceIdeal
import proofs.«108507_g21028159881243_cont_8to1_1723_10_alg».proof.Proof.Gen.Pre_finite_inputs
import proofs.«108507_g21028159881243_cont_8to1_1723_10_alg».proof.Proof.Gen.KernelIdeal.Value
import proofs.«108507_g21028159881243_cont_8to1_1723_10_alg».proof.Proof.Gen.ReferenceIdeal.Run
import proofs.«108507_g21028159881243_cont_8to1_1723_10_alg».proof.Proof.Gen.ReferenceIdeal.Read
import proofs.«108507_g21028159881243_cont_8to1_1723_10_alg».proof.Proof.Spec
import proofs.«108507_g21028159881243_cont_8to1_1723_10_alg».proof.Proof.RefLayer
import proofs.«108507_g21028159881243_cont_8to1_1723_10_alg».proof.Proof.KernelLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer function of the five arguments in their result array: the kernel band by band,
    the reference operation by operation; the arguments agree, so the results are equal entry by entry. -/
theorem algebraic : Cert.algebraic_KernelIdeal_ReferenceIdeal := by
  intro m ρ m' ρ' _ hagree
  refine ⟨fun c => Cert.Sage.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
